-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S8000000 : Shape := ⟨1, ![8000000]⟩
abbrev S_ : Shape := ⟨0, ![]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel

variable [Facts]

def fn {F : FTy → Type} [FloatOps F] (main_arg0 : FVec F S500000x3 .f32) (main_arg1 : FVec F S500000x3 .f32) (main_arg2 : IVec S8000000 32) (main_arg3 : IVec S8000000 32) (main_arg4 : IVec S8000000 32) : IVec S_ 1 :=
  let main_v0 : FVec F S500000x3 .f32 := Host.absf main_arg0
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S500000x3 .f32 := Host.absf main_arg1
  let main_cst_0 : FVec F S_ .f32 := constant S_ .f32 0x7F800000#32
  let main_v5 : FVec F S500000x3 .f32 := broadcastInDim S500000x3 ![] bcast_S_S500000x3 main_cst_0
  let main_v6 : IVec S500000x3 1 := cmpf .olt main_v4 main_v5
  let main_c_1 : IVec S_ 1 := constantI S_ 1 1#1
  let main_v7 : IVec S_ 1 := (fun x v => Host.reduce IntOp.andi x v reducesTo_S500000x3_S_d0_1 h_S_) main_v6 main_c_1
  let main_v8 : IVec S_ 1 := andi main_v3 main_v7
  main_v8
-- ==== Kernel.lean ====
abbrev S500000x3 : Shape := ⟨2, ![500000, 3]⟩
abbrev S8000000 : Shape := ⟨1, ![8000000]⟩
abbrev S3x500000 : Shape := ⟨2, ![3, 500000]⟩
abbrev S_ : Shape := ⟨0, ![]⟩
abbrev S8000000x1 : Shape := ⟨2, ![8000000, 1]⟩
abbrev S3x8000000 : Shape := ⟨2, ![3, 8000000]⟩
abbrev S2x8x128 : Shape := ⟨3, ![2, 8, 128]⟩
abbrev S3x160000 : Shape := ⟨2, ![3, 160000]⟩
abbrev S1x8x128 : Shape := ⟨3, ![1, 8, 128]⟩
abbrev S160000 : Shape := ⟨1, ![160000]⟩
abbrev S1x160000 : Shape := ⟨2, ![1, 160000]⟩
abbrev S1 : Shape := ⟨1, ![1]⟩
abbrev S1x1 : Shape := ⟨2, ![1, 1]⟩
abbrev S1x1x1 : Shape := ⟨3, ![1, 1, 1]⟩

abbrev nBuf : Space → Nat
  | .hbm => 43
  | .vmem => 6
  | .smem => 0
  | _ => 0

abbrev bufTy : (tb : Table) → Fin (tcTables nBuf tb) → BufTy
  | .hbm, ⟨0, _⟩ => ⟨S500000x3, .f32⟩
  | .hbm, ⟨1, _⟩ => ⟨S500000x3, .f32⟩
  | .hbm, ⟨2, _⟩ => ⟨S8000000, .i32⟩
  | .hbm, ⟨3, _⟩ => ⟨S8000000, .i32⟩
  | .hbm, ⟨4, _⟩ => ⟨S8000000, .i32⟩
  | .hbm, ⟨5, _⟩ => ⟨S3x500000, .f32⟩
  | .hbm, ⟨6, _⟩ => ⟨S3x500000, .f32⟩
  | .hbm, ⟨7, _⟩ => ⟨S_, .i32⟩
  | .hbm, ⟨8, _⟩ => ⟨S8000000, .i32⟩
  | .hbm, ⟨9, _⟩ => ⟨S8000000, .i1⟩
  | .hbm, ⟨10, _⟩ => ⟨S_, .i32⟩
  | .hbm, ⟨11, _⟩ => ⟨S8000000, .i32⟩
  | .hbm, ⟨12, _⟩ => ⟨S8000000, .i32⟩
  | .hbm, ⟨13, _⟩ => ⟨S8000000, .i32⟩
  | .hbm, ⟨14, _⟩ => ⟨S8000000x1, .i32⟩
  | .hbm, ⟨15, _⟩ => ⟨S3x8000000, .f32⟩
  | .hbm, ⟨16, _⟩ => ⟨S_, .i32⟩
  | .hbm, ⟨17, _⟩ => ⟨S8000000, .i32⟩
  | .hbm, ⟨18, _⟩ => ⟨S8000000, .i1⟩
  | .hbm, ⟨19, _⟩ => ⟨S_, .i32⟩
  | .hbm, ⟨20, _⟩ => ⟨S8000000, .i32⟩
  | .hbm, ⟨21, _⟩ => ⟨S8000000, .i32⟩
  | .hbm, ⟨22, _⟩ => ⟨S8000000, .i32⟩
  | .hbm, ⟨23, _⟩ => ⟨S8000000x1, .i32⟩
  | .hbm, ⟨24, _⟩ => ⟨S3x8000000, .f32⟩
  | .hbm, ⟨25, _⟩ => ⟨S3x8000000, .f32⟩
  | .hbm, ⟨26, _⟩ => ⟨S_, .i32⟩
  | .hbm, ⟨27, _⟩ => ⟨S8000000, .i32⟩
  | .hbm, ⟨28, _⟩ => ⟨S8000000, .i1⟩
  | .hbm, ⟨29, _⟩ => ⟨S_, .i32⟩
  | .hbm, ⟨30, _⟩ => ⟨S8000000, .i32⟩
  | .hbm, ⟨31, _⟩ => ⟨S8000000, .i32⟩
  | .hbm, ⟨32, _⟩ => ⟨S8000000, .i32⟩
  | .hbm, ⟨33, _⟩ => ⟨S8000000x1, .i32⟩
  | .hbm, ⟨34, _⟩ => ⟨S3x8000000, .f32⟩
  | .hbm, ⟨35, _⟩ => ⟨S2x8x128, .f32⟩
  | .hbm, ⟨36, _⟩ => ⟨S1x1x1, .f32⟩
  | .hbm, ⟨37, _⟩ => ⟨S_, .f32⟩
  | .hbm, ⟨38, _⟩ => ⟨S1x1x1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S3x160000, .f32⟩
  | .local _ .vmem, ⟨1, _⟩ => ⟨S3x160000, .f32⟩
  | .local _ .vmem, ⟨2, _⟩ => ⟨S3x160000, .f32⟩
  | .local _ .vmem, ⟨3, _⟩ => ⟨S3x160000, .f32⟩
  | .local _ .vmem, ⟨4, _⟩ => ⟨S1x8x128, .f32⟩
  | .local _ .vmem, ⟨5, _⟩ => ⟨S1x8x128, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x160000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x160000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S500000x3_S3x500000_1_0 : S500000x3.Transposes [1, 0] S3x500000
  bcast_S_S8000000 : S_.BroadcastsInDim S8000000 (![] : Fin 0 → Fin S8000000.rank)
  bcast_S8000000_S8000000x1_0 : S8000000.BroadcastsInDim S8000000x1 (![0] : Fin 1 → Fin S8000000x1.rank)
  inb_S1x8x128_S1x8x128_0_0_0 : ∀ a, (![0, 0, 0] : Fin 3 → Nat) a + S1x8x128.size a ≤ S1x8x128.size a
  h_S1x8x128 : 0 < S1x8x128.numel
  inb_S3x160000_S3x160000_0_0 : ∀ a, (![0, 0] : Fin 2 → Nat) a + S3x160000.size a ≤ S3x160000.size a
  h_S3x160000 : 0 < S3x160000.numel
  shapeCasts_S3x160000_S3x160000 : S3x160000.ShapeCasts S3x160000
  reduces_S3x160000_S160000 : S3x160000.Reduces [0] S160000
  shapeCasts_S160000_S1x160000 : S160000.ShapeCasts S1x160000
  broadcasts_S1x160000_S3x160000 : S1x160000.Broadcasts S3x160000
  reduces_S1x160000_S1 : S1x160000.Reduces [1] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  shapeCasts_S1x8x128_S1x8x128 : S1x8x128.ShapeCasts S1x8x128
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  gather_S3x500000_S8000000x1_S3x8000000_0_1_n_n_1_1_31_wf : GatherDims.WF S3x500000 S8000000x1 S3x8000000 [0] [1] [] [1] [] 1 ![3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x160000.size a ≤ S3x8000000.size a
  hwx0_0 : ∀ i : grid0.Coords, EltTy.bits .f32 = 32 ∨ (Rect.block (s := S3x8000000) S3x160000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x160000.size a ≤ S3x8000000.size a
  hwx0_1 : ∀ i : grid0.Coords, EltTy.bits .f32 = 32 ∨ (Rect.block (s := S3x8000000) S3x160000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

def gather_S3x500000_S8000000x1_S3x8000000_0_1_n_n_1_1_31 : GatherDims S3x500000 S8000000x1 S3x8000000 where
  offsetDims := [0]
  collapsedSliceDims := [1]
  operandBatchingDims := []
  startIndicesBatchingDims := []
  startIndexMap := [1]
  indexVectorDim := 1
  sliceSizes := ![3, 1]
  wf := gather_S3x500000_S8000000x1_S3x8000000_0_1_n_n_1_1_31_wf

abbrev win0_0 : Pipeline.Window sig grid0 :=
  Pipeline.Window.ofSpec (Memref.whole main_v16) S3x160000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S3x160000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000x3 : Shape := ⟨2, ![500000, 3]⟩
abbrev S8000000 : Shape := ⟨1, ![8000000]⟩
abbrev S_ : Shape := ⟨0, ![]⟩
abbrev S8000000x1 : Shape := ⟨2, ![8000000, 1]⟩
abbrev S8000000x3 : Shape := ⟨2, ![8000000, 3]⟩

abbrev nBuf : Space → Nat
  | .hbm => 48
  | .vmem => 0
  | .smem => 0
  | _ => 0

abbrev bufTy : (tb : Table) → Fin (tcTables nBuf tb) → BufTy
  | .hbm, ⟨0, _⟩ => ⟨S500000x3, .f32⟩
  | .hbm, ⟨1, _⟩ => ⟨S500000x3, .f32⟩
  | .hbm, ⟨2, _⟩ => ⟨S8000000, .i32⟩
  | .hbm, ⟨3, _⟩ => ⟨S8000000, .i32⟩
  | .hbm, ⟨4, _⟩ => ⟨S8000000, .i32⟩
  | .hbm, ⟨5, _⟩ => ⟨S_, .i32⟩
  | .hbm, ⟨6, _⟩ => ⟨S8000000, .i32⟩
  | .hbm, ⟨7, _⟩ => ⟨S8000000, .i1⟩
  | .hbm, ⟨8, _⟩ => ⟨S_, .i32⟩
  | .hbm, ⟨9, _⟩ => ⟨S8000000, .i32⟩
  | .hbm, ⟨10, _⟩ => ⟨S8000000, .i32⟩
  | .hbm, ⟨11, _⟩ => ⟨S8000000, .i32⟩
  | .hbm, ⟨12, _⟩ => ⟨S8000000x1, .i32⟩
  | .hbm, ⟨13, _⟩ => ⟨S8000000x3, .f32⟩
  | .hbm, ⟨14, _⟩ => ⟨S_, .i32⟩
  | .hbm, ⟨15, _⟩ => ⟨S8000000, .i32⟩
  | .hbm, ⟨16, _⟩ => ⟨S8000000, .i1⟩
  | .hbm, ⟨17, _⟩ => ⟨S_, .i32⟩
  | .hbm, ⟨18, _⟩ => ⟨S8000000, .i32⟩
  | .hbm, ⟨19, _⟩ => ⟨S8000000, .i32⟩
  | .hbm, ⟨20, _⟩ => ⟨S8000000, .i32⟩
  | .hbm, ⟨21, _⟩ => ⟨S8000000x1, .i32⟩
  | .hbm, ⟨22, _⟩ => ⟨S8000000x3, .f32⟩
  | .hbm, ⟨23, _⟩ => ⟨S8000000x3, .f32⟩
  | .hbm, ⟨24, _⟩ => ⟨S8000000x3, .f32⟩
  | .hbm, ⟨25, _⟩ => ⟨S_, .f32⟩
  | .hbm, ⟨26, _⟩ => ⟨S8000000, .f32⟩
  | .hbm, ⟨27, _⟩ => ⟨S8000000x1, .f32⟩
  | .hbm, ⟨28, _⟩ => ⟨S8000000x1, .f32⟩
  | .hbm, ⟨29, _⟩ => ⟨S8000000x3, .f32⟩
  | .hbm, ⟨30, _⟩ => ⟨S8000000x3, .f32⟩
  | .hbm, ⟨31, _⟩ => ⟨S_, .i32⟩
  | .hbm, ⟨32, _⟩ => ⟨S8000000, .i32⟩
  | .hbm, ⟨33, _⟩ => ⟨S8000000, .i1⟩
  | .hbm, ⟨34, _⟩ => ⟨S_, .i32⟩
  | .hbm, ⟨35, _⟩ => ⟨S8000000, .i32⟩
  | .hbm, ⟨36, _⟩ => ⟨S8000000, .i32⟩
  | .hbm, ⟨37, _⟩ => ⟨S8000000, .i32⟩
  | .hbm, ⟨38, _⟩ => ⟨S8000000x1, .i32⟩
  | .hbm, ⟨39, _⟩ => ⟨S8000000x3, .f32⟩
  | .hbm, ⟨40, _⟩ => ⟨S8000000x3, .f32⟩
  | .hbm, ⟨41, _⟩ => ⟨S_, .f32⟩
  | .hbm, ⟨42, _⟩ => ⟨S8000000, .f32⟩
  | .hbm, ⟨43, _⟩ => ⟨S8000000, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  bcast_S_S8000000 : S_.BroadcastsInDim S8000000 (![] : Fin 0 → Fin S8000000.rank)
  bcast_S8000000_S8000000x1_0 : S8000000.BroadcastsInDim S8000000x1 (![0] : Fin 1 → Fin S8000000x1.rank)
  reducesTo_S8000000x3_S8000000_d1 : S8000000x3.ReducesTo [1] S8000000
  h_S_ : 0 < S_.numel
  bcast_S8000000x1_S8000000x3_0_1 : S8000000x1.BroadcastsInDim S8000000x3 (![0, 1] : Fin 2 → Fin S8000000x3.rank)
  reducesTo_S8000000_S_d0 : S8000000.ReducesTo [0] S_
  gather_S500000x3_S8000000x1_S8000000x3_1_0_n_n_0_1_13_wf : GatherDims.WF S500000x3 S8000000x1 S8000000x3 [1] [0] [] [0] [] 1 ![1, 3]

variable [Facts₀]

def gather_S500000x3_S8000000x1_S8000000x3_1_0_n_n_0_1_13 : GatherDims S500000x3 S8000000x1 S8000000x3 where
  offsetDims := [1]
  collapsedSliceDims := [0]
  operandBatchingDims := []
  startIndicesBatchingDims := []
  startIndexMap := [0]
  indexVectorDim := 1
  sliceSizes := ![1, 3]
  wf := gather_S500000x3_S8000000x1_S8000000x3_1_0_n_n_0_1_13_wf

class Facts : Prop extends Facts₀ where

variable [Facts]
-- ==== Proof.TileCases.lean ====
/-
  What the kernel body leaves in the output tile, case by case.

  The body loads the block of edge vectors `x0` and the block of normals `x1` (each 3 × 160000), and ends with one
  store of the whole 1 × 8 × 128 tile: the tile it found, plus the block's sum broadcast to every entry (the payload
  `k0_pay2`). At a point that opens a grid row it first stores a tile of zeros (`k0_pay1`), so the tile it finds is
  that one; at any other point the tile it finds is what the point before left, `xo`.
-/
import proofs.«424472_j2516850835619_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tile

open Cert.KernelIdeal Cert.KernelIdeal.Gen

variable {F : FTy → Type} [FloatOps F]

theorem zero3 : (![0, 0, 0] : Fin 3 → Nat) = fun _ => 0 := funext fun a => by fin_cases a <;> rfl
theorem zero2 : (![0, 0] : Fin 2 → Nat) = fun _ => 0 := funext fun a => by fin_cases a <;> rfl

/-- A point inside a row: the tile `xo` found, plus the block's sum. -/
theorem out_B (c : Dev nD) (i : grid0.Coords) (a2 : Memref sig .tc .vmem S3x160000 .f32) (h2 : a2.IsWhole)
    (a3 : Memref sig .tc .vmem S3x160000 .f32) (h3 : a3.IsWhole) (a4 : Memref sig .tc .vmem S1x8x128 .f32) (h4 : a4.IsWhole)
    (hc : ¬cond0_0 i) (x0 x1 : Vec F S3x160000 .f32) (xo : Vec F S1x8x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero zero3]
  simp only [View.readAt_eq_ld, h2.read_unread, h3.read_unread, h4.read_unread,
    View.ld_unit_zero (S := S3x160000) zero2, View.ld_unit_zero (S := S1x8x128) zero3]

/-- A point that opens a row: the tile of zeros just stored, plus the block's sum. -/
theorem out_A (c : Dev nD) (i : grid0.Coords) (a2 : Memref sig .tc .vmem S3x160000 .f32) (h2 : a2.IsWhole)
    (a3 : Memref sig .tc .vmem S3x160000 .f32) (h3 : a3.IsWhole) (a4 : Memref sig .tc .vmem S1x8x128 .f32) (h4 : a4.IsWhole)
    (hc : cond0_0 i) (x0 x1 : Vec F S3x160000 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x8x128) zero3, View.readCov_unit_zero (S := S1x8x128) _ zero3]
  simp only [View.readAt_eq_ld, h2.read_unread, h3.read_unread,
    View.ld_unit_zero (S := S3x160000) zero2, View.ld_unit_zero (S := S1x8x128) zero3]

end Cert.KernelIdeal.Tile

end
-- ==== Proof.EdgeSum.lean ====
/-
  The mathematics both programs share, over the extended reals.

  An edge `r` has an edge vector `e r : Fin 3 → EReal` (the difference of its two endpoints) and a normal
  `n r : Fin 3 → EReal`. Its term is the square of `∑ₖ nₖ · (eₖ / ‖e‖)` with `‖e‖ = sqrt (∑ⱼ eⱼ · eⱼ)`; the loss is the
  sum of the terms of all 8,000,000 edges divided by 8,000,000.

  The reference sums the terms in one sweep. The kernel walks the edges in 50 blocks of 160,000: a grid of two rows
  of 25 points; on each row a tile starts from zero at the row's first point and every point adds its block's sum
  to it; the two rows' tiles are added at the end. Addition on the extended reals is commutative and associative
  (with `0` neutral), so the order and the grouping do not matter: `running_eq_sum` (a row's tile after `g + 1`
  points is the sum of their blocks), `two_rows` (the two rows make all 50 blocks) and `sum_blocks` (the blocks'
  sums make the sum over all edges). No finiteness is used: no law here distributes or cancels.
-/
import Idealize.ShloMosaic.PureOps.Ideal
import Idealize.ShloMosaic.PureOps.Ideal.Laws

noncomputable section

open scoped BigOperators

namespace Cert.EdgeSum

open Idealize.ShloMosaic

/-- The dot of a normal `n` with the edge vector `e` divided by its Euclidean length. -/
def cosine (e n : Fin 3 → EReal) : EReal :=
  ∑ k : Fin 3, n k * Ideal.div (e k) (Ideal.sqrt (∑ j : Fin 3, e j * e j))

/-- One edge's term of the loss: that dot, squared. -/
def term (e n : Fin 3 → EReal) : EReal := cosine e n * cosine e n

/-- A row's tile after the body at point `n` of the 2 × 25 grid walked row by row: a point that opens a row
    (`n ≡ 0 mod 25`) starts from zero, every point adds its block's sum `P n`. -/
def running (P : ℕ → EReal) : ℕ → EReal
  | 0 => 0 + P 0
  | n + 1 => if (n + 1) % 25 = 0 then 0 + P (n + 1) else running P n + P (n + 1)

/-- The same, as one step from the point before. -/
theorem running_step (P : ℕ → EReal) (n : ℕ) :
    running P n = if n % 25 = 0 then P n else running P (n - 1) + P n := by
  cases n with
  | zero => simp [running]
  | succ n => simp only [running, Nat.add_sub_cancel, zero_add]

/-- On row `i`, after its point `g`, the tile is the sum of the row's first `g + 1` blocks. -/
theorem running_eq_sum (P : ℕ → EReal) (i : ℕ) :
    ∀ g, g < 25 → running P (25 * i + g) = ∑ j ∈ Finset.range (g + 1), P (25 * i + j)
  | 0, _ => by
    rw [running_step, if_pos (by omega)]
    simp
  | g + 1, hg => by
    rw [running_step, if_neg (by omega), show 25 * i + (g + 1) - 1 = 25 * i + g by omega,
      running_eq_sum P i g (by omega), Finset.sum_range_succ _ (g + 1)]

/-- The two rows' final tiles, added, are the sum of all 50 blocks. -/
theorem two_rows (P : ℕ → EReal) : running P 24 + running P 49 = ∑ t ∈ Finset.range 50, P t := by
  have h0 : running P 24 = ∑ j ∈ Finset.range 25, P j := by
    simpa using running_eq_sum P 0 24 (by omega)
  have h1 : running P 49 = ∑ j ∈ Finset.range 25, P (25 + j) := by
    simpa using running_eq_sum P 1 24 (by omega)
  rw [h0, h1, ← Finset.sum_range_add P 25 25]

/-- Edge `l` of block `t`: blocks are consecutive runs of 160,000 edges. -/
def edgeAt (t : Fin 50) (l : Fin 160000) : Fin 8000000 := ⟨t.val * 160000 + l.val, by omega⟩

/-- (block, edge in the block) ↔ edge. -/
def blockEquiv : Fin 50 × Fin 160000 ≃ Fin 8000000 :=
  (finProdFinEquiv (m := 50) (n := 160000)).trans (finCongr (by norm_num))

theorem blockEquiv_apply (t : Fin 50) (l : Fin 160000) : blockEquiv (t, l) = edgeAt t l := by
  apply Fin.ext
  simp only [blockEquiv, edgeAt, Equiv.trans_apply, finProdFinEquiv_apply_val, finCongr_apply, Fin.coe_cast]
  ring

/-- The blocks' sums make the sum over all edges. -/
theorem sum_blocks (T : Fin 8000000 → EReal) :
    ∑ t : Fin 50, ∑ l : Fin 160000, T (edgeAt t l) = ∑ r : Fin 8000000, T r := by
  rw [← Equiv.sum_comp blockEquiv T, Fintype.sum_prod_type]
  exact Finset.sum_congr rfl fun t _ => Finset.sum_congr rfl fun l _ => by rw [blockEquiv_apply]

/-- A sum over the first 50 naturals of a family given on `Fin 50`. -/
theorem sum_range_fin (P : ℕ → EReal) (Q : Fin 50 → EReal) (h : ∀ t : Fin 50, P t.val = Q t) :
    ∑ t ∈ Finset.range 50, P t = ∑ t : Fin 50, Q t := by
  rw [Finset.sum_range]
  exact Finset.sum_congr rfl fun t _ => h t

end Cert.EdgeSum

end
-- ==== Proof.TilePayload.lean ====
/-
  The body's arithmetic, read at the ideal instance: the stored tile is the tile found plus ONE number, the sum over
  the block's 160,000 edges of the edge's term.

  For the block of edge vectors `x0` and of normals `x1` (3 × 160000, an edge a column): the sum over the three rows of
  `x0 · x0` is the squared length of each column; its square root is broadcast back over the rows and divides `x0`;
  the sum over the rows of `x1 · (x0 / length)` is each column's dot; it is squared and summed over the 160,000 lanes
  to one number, which is broadcast over the 1 × 8 × 128 tile and added to the tile found.
-/
import proofs.«424472_j2516850835619_3_alg».proof.Proof.Gen.KernelIdeal.Skeleton
import proofs.«424472_j2516850835619_3_alg».proof.Proof.EdgeSum
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.ShloMosaic.ValueIdx

namespace Cert.KernelIdeal.Tile

open Cert.KernelIdeal Cert.KernelIdeal.Gen

/-- Column `l` of a 3 × 160000 block: one edge's three components. -/
abbrev col (x : FVec Ideal S3x160000 .f32) (l : Fin 160000) : Fin 3 → EReal := fun k => x (ix2 k l)

/-- The sum of the terms of a block's 160,000 edges. -/
def blockSum (x0 x1 : FVec Ideal S3x160000 .f32) : EReal :=
  ∑ l : Fin 160000, Cert.EdgeSum.term (col x0 l) (col x1 l)

/-- A sum over the three rows, read at lane `l`. -/
theorem rows_apply (v : FVec Ideal S3x160000 .f32) (h : S3x160000.Reduces [0] S160000) (hφ : FKind.Formats .f32)
    (hacc : (0x00000000#32 : BitVec 32) = FKind.add.neutral .f32 hφ) (l : Fin 160000) :
    multiReduction .add [0] S160000 v 0x00000000#32 h hφ hacc (ix1 l) = ∑ k : Fin 3, v (ix2 k l) := by
  refine (Ideal.multiReduction_add_single v 0x00000000#32 h hφ hacc (ix1 l)).trans ?_
  exact Finset.sum_congr rfl fun k _ => congrArg v (funext fun a => Fin.ext (by
    match a with
    | ⟨0, _⟩ => rfl
    | ⟨1, _⟩ => rfl))

/-- A sum over the 160,000 lanes of a one-row vector. -/
theorem lanes_apply (v : FVec Ideal S1x160000 .f32) (h : S1x160000.Reduces [1] S1) (hφ : FKind.Formats .f32)
    (hacc : (0x00000000#32 : BitVec 32) = FKind.add.neutral .f32 hφ) (j : S1.Idx) :
    multiReduction .add [1] S1 v 0x00000000#32 h hφ hacc j = ∑ l : Fin 160000, v (ix2 (0 : Fin 1) l) := by
  refine (Ideal.multiReduction_add_single v 0x00000000#32 h hφ hacc j).trans ?_
  exact Finset.sum_congr rfl fun l _ => congrArg v (funext fun a => Fin.ext (by
    match a with
    | ⟨0, _⟩ => show (h.lift j l 0).val = 0; have := (h.lift j l 0).isLt; simp at this; omega
    | ⟨1, _⟩ => rfl))

/-- A square root read at an index. -/
theorem sqrt_apply {s : Shape} (a : FVec Ideal s .f32) (i : s.Idx) : sqrt a i = Ideal.sqrt (a i) := rfl

/-- One number carried through the unit-axis casts and broadcast over the tile reads that number everywhere. -/
theorem tile_of_scalar (s : FVec Ideal S1 .f32) (h1 : S1.ShapeCasts S1x1) (h2 : S1x1.ShapeCasts S1x1x1)
    (h4 : S1x1x1.Broadcasts S1x8x128) (y : S1x8x128.Idx) :
    broadcastTo S1x8x128 (shapeCast S1x1x1 (shapeCast S1x1 s h1) h2) h4 y = s (ix1 (0 : Fin 1)) := by
  refine (broadcastTo_apply _ h4 y (ix3 (0 : Fin 1) (0 : Fin 1) (0 : Fin 1)) (fun a => by
    match a with
    | ⟨0, _⟩ => rfl
    | ⟨1, _⟩ => rfl
    | ⟨2, _⟩ => rfl)).trans ?_
  refine (shapeCast_ab_1ab_apply _ h2 (0 : Fin 1) (0 : Fin 1) (0 : Fin 1)).trans ?_
  exact shapeCast_a_1a_apply s h1 (0 : Fin 1) (0 : Fin 1)

/-- Each lane's dot of the normal with the unit edge vector, as the body computes it. -/
theorem lane_cosine (x0 x1 : FVec Ideal S3x160000 .f32) (h : S3x160000.Reduces [0] S160000) (hφ : FKind.Formats .f32)
    (hacc : (0x00000000#32 : BitVec 32) = FKind.add.neutral .f32 hφ) (hc : S160000.ShapeCasts S1x160000)
    (hb : S1x160000.Broadcasts S3x160000) (u : Fin 1) (l : Fin 160000) :
    shapeCast S1x160000 (multiReduction .add [0] S160000
      (mulf x1 (divf x0 (broadcastTo S3x160000 (sqrt (shapeCast S1x160000
        (multiReduction .add [0] S160000 (mulf x0 x0) 0x00000000#32 h hφ hacc) hc)) hb)))
      0x00000000#32 h hφ hacc) hc (ix2 u l) = Cert.EdgeSum.cosine (col x0 l) (col x1 l) := by
  refine (shapeCast_a_1a_apply _ hc u l).trans ?_
  refine (rows_apply _ h hφ hacc l).trans ?_
  unfold Cert.EdgeSum.cosine
  refine Finset.sum_congr rfl fun k _ => ?_
  refine (mulf_apply _ _ (ix2 k l)).trans ?_
  refine congrArg (x1 (ix2 k l) * ·) ?_
  refine (divf_apply _ _ (ix2 k l)).trans ?_
  refine congrArg (Ideal.div (x0 (ix2 k l))) ?_
  refine (broadcastTo_1b_ab_apply _ hb k l).trans ?_
  refine (sqrt_apply _ (ix2 (0 : Fin 1) l)).trans ?_
  refine congrArg Ideal.sqrt ?_
  refine (shapeCast_a_1a_apply _ hc (0 : Fin 1) l).trans ?_
  refine (rows_apply _ h hφ hacc l).trans ?_
  exact Finset.sum_congr rfl fun j _ => mulf_apply x0 x0 (ix2 j l)

/-- THE PAYLOAD: every entry of the stored tile is the entry found plus the block's sum. -/
theorem pay2_apply (x0 x1 : FVec Ideal S3x160000 .f32) (xo : FVec Ideal S1x8x128 .f32) (y : S1x8x128.Idx) :
    k0_pay2 (F := Ideal) x0 x1 xo y = xo y + blockSum x0 x1 := by
  unfold k0_pay2
  simp only [shapeCast_self]
  refine (addf_apply _ _ y).trans ?_
  refine congrArg (xo y + ·) ?_
  refine (tile_of_scalar _ _ _ _ y).trans ?_
  refine (lanes_apply _ _ _ _ _).trans ?_
  unfold blockSum Cert.EdgeSum.term
  refine Finset.sum_congr rfl fun l _ => ?_
  refine (mulf_apply _ _ (ix2 (0 : Fin 1) l)).trans ?_
  exact congrArg₂ (· * ·) (lane_cosine x0 x1 _ _ _ _ _ (0 : Fin 1) l) (lane_cosine x0 x1 _ _ _ _ _ (0 : Fin 1) l)

/-- The tile of zeros a row's first point stores. -/
theorem pay1_apply (y : S1x8x128.Idx) : k0_pay1 (F := Ideal) y = 0 := by
  show Ideal.ofBits .f32 0x00000000#32 = 0
  exact Ideal.ofBits_zero_f32

end Cert.KernelIdeal.Tile

end
-- ==== Proof.TileRun.lean ====
/-
  The output tile after each grid point is the running sum of its row's blocks.

  The 50 points are walked row by row (point `n` is row `n / 25`, step `n % 25`). A point that opens a row leaves
  `0 + ` its block's sum in every entry of the tile; any other point leaves what the point before left plus its own
  block's sum. By induction on the point every entry of the tile after point `n` is `EdgeSum.running` of the blocks'
  sums at `n` (which `EdgeSum.running_eq_sum` then turns into the sum of the row's blocks so far).
-/
import proofs.«424472_j2516850835619_3_alg».proof.Proof.TileCases
import proofs.«424472_j2516850835619_3_alg».proof.Proof.TilePayload

noncomputable section

open scoped BigOperators
open Idealize.ShloMosaic Idealize.ShloMosaic.TcCoe Idealize.SL.Sem Idealize.ShloMosaic.ValueIdx

namespace Cert.KernelIdeal.Tile

open Cert.KernelIdeal Cert.KernelIdeal.Gen

variable (m : (ℓ : Loc nD τ sig) → Buf (Elt Ideal) ℓ)

/-- The block of edge vectors the body finds at point `t`, as a 3 × 160000 vector of extended reals. -/
abbrev eblk (c : Dev nD) (t : Fin cfg0.N) : FVec Ideal S3x160000 .f32 := iblk m c 0 t
/-- The block of normals the body finds at point `t`. -/
abbrev nblk (c : Dev nD) (t : Fin cfg0.N) : FVec Ideal S3x160000 .f32 := iblk m c 1 t

/-- The sum of the terms of the edges of block `n` (zero past the grid's last point). -/
def blockAt (c : Dev nD) (n : ℕ) : EReal :=
  if h : n < cfg0.N then blockSum (eblk m c ⟨n, h⟩) (nblk m c ⟨n, h⟩) else 0

theorem blockAt_of_lt (c : Dev nD) (n : ℕ) (h : n < cfg0.N) :
    blockAt m c n = blockSum (eblk m c ⟨n, h⟩) (nblk m c ⟨n, h⟩) := dif_pos h

/-- A point that opens a row leaves `0 +` its block's sum in every entry. -/
theorem opens_row (c : Dev nD) (t : Fin cfg0.N) (h0 : t.val % 25 = 0) (y : S1x8x128.Idx) :
    outsAt0 m c t.val t.isLt y = 0 + blockAt m c t.val := by
  have e := congrFun ((outsAt0_A m c t h0).trans
    (out_A (F := Ideal) c (grid0.coords t) (ms0_0 t) (hs0_0 t) (ms0_1 t) (hs0_1 t) (ms0_2 t) (hs0_2 t)
      ((hcond0_0 t).mpr h0) (iblk m c 0 t) (iblk m c 1 t))) y
  refine e.trans ?_
  refine (pay2_apply (eblk m c t) (nblk m c t) (k0_pay1 (F := Ideal)) y).trans ?_
  rw [pay1_apply, blockAt_of_lt m c t.val t.isLt]

/-- Any other point adds its block's sum to what the point before left. -/
theorem inside_row (c : Dev nD) (t : Fin cfg0.N) (h0 : ¬t.val % 25 = 0) (y : S1x8x128.Idx) :
    outsAt0 m c t.val t.isLt y
      = outsAt0 m c (t.val - 1) (Nat.lt_of_le_of_lt (Nat.sub_le _ _) t.isLt) y + blockAt m c t.val := by
  have e := congrFun ((outsAt0_B m c t h0).trans
    (out_B (F := Ideal) c (grid0.coords t) (ms0_0 t) (hs0_0 t) (ms0_1 t) (hs0_1 t) (ms0_2 t) (hs0_2 t)
      (fun h => h0 ((hcond0_0 t).mp h)) (iblk m c 0 t) (iblk m c 1 t)
      (outsAt0 m c (t.val - 1) (Nat.lt_of_le_of_lt (Nat.sub_le _ _) t.isLt)))) y
  refine e.trans ?_
  refine (pay2_apply (eblk m c t) (nblk m c t)
    (outsAt0 m c (t.val - 1) (Nat.lt_of_le_of_lt (Nat.sub_le _ _) t.isLt)) y).trans ?_
  rw [blockAt_of_lt m c t.val t.isLt]

/-- Every entry of the tile after point `n` is the running value of the blocks' sums at `n`. -/
theorem tile_eq_running (c : Dev nD) : ∀ (n : ℕ) (hn : n < cfg0.N) (y : S1x8x128.Idx),
    outsAt0 m c n hn y = Cert.EdgeSum.running (blockAt m c) n
  | 0, hn, y => by
    rw [Cert.EdgeSum.running_step, if_pos (Nat.zero_mod _)]
    exact (opens_row m c ⟨0, hn⟩ (Nat.zero_mod _) y).trans (zero_add _)
  | n + 1, hn, y => by
    rw [Cert.EdgeSum.running_step]
    by_cases h0 : (n + 1) % 25 = 0
    · rw [if_pos h0]
      exact (opens_row m c ⟨n + 1, hn⟩ h0 y).trans (zero_add _)
    · rw [if_neg h0]
      refine (inside_row m c ⟨n + 1, hn⟩ h0 y).trans ?_
      show outsAt0 m c n _ y + _ = Cert.EdgeSum.running (blockAt m c) n + _
      rw [tile_eq_running c n (Nat.lt_of_succ_lt hn) y]

end Cert.KernelIdeal.Tile

end
-- ==== Proof.TileArray.lean ====
/-
  The kernel's result array, 2 × 8 × 128: row `i` holds, in every entry, the tile of grid row `i` after that row's
  last point (point `25 i + 24`).

  The tile is written back to the array only at a row's last point (points 24 and 49), as block `i` of the array's
  first axis; those two blocks cover the array.
-/
import proofs.«424472_j2516850835619_3_alg».proof.Proof.TileRun
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen

variable (m : (ℓ : Loc nD τ sig) → Buf (Elt Ideal) ℓ)

/-- What the result array ends holding: entry `(i, a, b)` is row `i`'s tile after the row's last point. -/
def rowTiles (c : Dev nD) : S2x8x128.Idx → Elt Ideal .f32 :=
  fun i => Cert.EdgeSum.running (blockAt m c) (25 * (i 0).val + 24)

/-- The output window's block index at point `t`: the grid row on the first axis, zero on the others. -/
theorem out_index : ∀ t : Fin cfg0.N, win0_2.index t (0 : Fin 3) = t.val / 25
    ∧ win0_2.index t (1 : Fin 3) = 0 ∧ win0_2.index t (2 : Fin 3) = 0 :=
  (by decide +kernel : ∀ t : Fin grid0.N, _)

/-- A row's last point writes back block `t / 25` of `rowTiles`. -/
theorem flushed_eq (c : Dev nD) (t : Fin cfg0.N) (hf : (cfg0.win 2).flush t = true) :
    (dats m 0 c).flushed 2 t = ((cfg0.win 2).blk t).view.read (Elt Ideal) (rowTiles m c) := by
  have h24 : t.val % 25 = 24 := (flush0_2 t).mp hf
  obtain ⟨e0, -, -⟩ := out_index t
  show (cfg0.win 2).cut (grid0.coords t) ((dats m 0 c).after 2 t) = _
  rw [after0_2]
  funext y
  show outsAt0 m c t.val t.isLt y = rowTiles m c (((cfg0.win 2).blk t).view.emb y)
  rw [tile_eq_running m c t.val t.isLt y]
  unfold rowTiles
  refine congrArg (Cert.EdgeSum.running (blockAt m c)) ?_
  have he : ((((cfg0.win 2).blk t).view.emb y) 0).val = win0_2.index t (0 : Fin 3) * 1 + 1 * (y 0).val := rfl
  have hy : (y 0).val < 1 := (y 0).isLt
  rw [he, e0]
  omega

/-- An index of the array is in point `t`'s block iff each coordinate is in the block's range on its axis. -/
theorem mem_blk (t : Fin cfg0.N) (i : S2x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v24).slice (win0_2.rect t)).set ↔ _
  rw [View.set_slice_whole, Rect.mem_set_unit]
  exact Iff.rfl

/-- Row `i` of the array is the block written back at that row's last point. -/
theorem covered (i : S2x8x128.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 128 := (i 2).isLt
  have hN : cfg0.N = 50 := N_0
  have ht : 25 * (i 0).val + 24 < cfg0.N := by rw [hN]; omega
  obtain ⟨e0, e1, e2⟩ := out_index ⟨25 * (i 0).val + 24, ht⟩
  have e0' : win0_2.index ⟨25 * (i 0).val + 24, ht⟩ (0 : Fin 3) = (i 0).val := by
    rw [e0]; show (25 * (i 0).val + 24) / 25 = (i 0).val; omega
  refine ⟨⟨25 * (i 0).val + 24, ht⟩, (flush0_2 _).mpr (by show (25 * (i 0).val + 24) % 25 = 24; omega), ?_⟩
  rw [mem_blk]
  intro a
  match a with
  | ⟨0, _⟩ =>
    show win0_2.index ⟨25 * (i 0).val + 24, ht⟩ (0 : Fin 3) * 1 ≤ (i 0).val
      ∧ (i 0).val < win0_2.index ⟨25 * (i 0).val + 24, ht⟩ (0 : Fin 3) * 1 + 1
    rw [e0']; omega
  | ⟨1, _⟩ =>
    show win0_2.index ⟨25 * (i 0).val + 24, ht⟩ (1 : Fin 3) * 8 ≤ (i 1).val
      ∧ (i 1).val < win0_2.index ⟨25 * (i 0).val + 24, ht⟩ (1 : Fin 3) * 8 + 8
    rw [e1]; omega
  | ⟨2, _⟩ =>
    show win0_2.index ⟨25 * (i 0).val + 24, ht⟩ (2 : Fin 3) * 128 ≤ (i 2).val
      ∧ (i 2).val < win0_2.index ⟨25 * (i 0).val + 24, ht⟩ (2 : Fin 3) * 128 + 128
    rw [e2]; omega

/-- THE RESULT ARRAY after the region. -/
theorem array_eq (c : Dev nD) : (dats m 0 c).arrAt 2 cfg0.N = rowTiles m c :=
  (dats m 0 c).arrAt_eq_of_cover 2 (rowTiles m c) (flushed_eq m c) covered

end Cert.KernelIdeal.Tile

end
-- ==== Proof.KernelLoss.lean ====
/-
  The idealized kernel's result: the sum over all 8,000,000 edges of the edge's term, divided by the literal 8.0e6.

  The region's two inputs are 3 × 8000000 arrays, an edge a column: `edges` (the endpoint differences) and `normals`.
  Point `t` of the grid reads columns `160000 t … 160000 t + 159999` of both, so its block's sum is the sum of the
  terms of those edges (`blockAt_eq`). The two rows of the result array are the two grid rows' tiles, whose sum is
  the sum of all 50 blocks, that is of all edges (`rows_total`). After the region the host takes entry (0,0,0) and
  entry (1,0,0) of the array, adds them and divides by 8.0e6 (`result_eq`).
-/
import proofs.«424472_j2516850835619_3_alg».proof.Proof.TileArray
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen

variable (m : (ℓ : Loc nD τ sig) → Buf (Elt Ideal) ℓ) (ρ : Dev nD → PrngReg)

/-- The endpoint differences as the region finds them: component `k` of edge `r` at `(k, r)`. -/
abbrev edges (c : Dev nD) : FVec Ideal S3x8000000 .f32 := V m c main_v16
/-- The gathered normals as the region finds them. -/
abbrev normals (c : Dev nD) : FVec Ideal S3x8000000 .f32 := V m c main_v23

/-- Edge `r`'s term of the loss. -/
def termAt (c : Dev nD) (r : Fin 8000000) : EReal :=
  Cert.EdgeSum.term (fun k => edges m c (ix2 k r)) (fun k => normals m c (ix2 k r))

/-- Both input windows' block index at point `t`: all three rows, the `t`-th run of 160,000 columns. -/
theorem in_index : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- Entry `(k, l)` of the block of edge vectors at point `t` is entry `(k, 160000 t + l)` of the array. -/
theorem eblk_apply (c : Dev nD) (t : Fin cfg0.N) (k : Fin 3) (l : Fin 160000) (r : Fin 8000000)
    (hr : r.val = t.val * 160000 + l.val) : eblk m c t (ix2 k l) = edges m c (ix2 k r) := by
  obtain ⟨e0, e1, -, -⟩ := in_index t
  show ((cfg0.win 0).blk t).view.read (Elt Ideal) (V m c (Pipeline.arrRef spec0 0)) (ix2 k l) = V m c main_v16 (ix2 k r)
  rw [View.read_apply]
  show V m c main_v16 (((cfg0.win 0).blk t).view.emb (ix2 k l)) = V m c main_v16 (ix2 k r)
  refine congrArg (V m c main_v16) (funext fun a => Fin.ext ?_)
  match a with
  | ⟨0, _⟩ => show win0_0.index t (0 : Fin 2) * 3 + 1 * k.val = k.val; rw [e0]; omega
  | ⟨1, _⟩ => show win0_0.index t (1 : Fin 2) * 160000 + 1 * l.val = r.val; rw [e1, hr]; omega

/-- The same for the block of normals. -/
theorem nblk_apply (c : Dev nD) (t : Fin cfg0.N) (k : Fin 3) (l : Fin 160000) (r : Fin 8000000)
    (hr : r.val = t.val * 160000 + l.val) : nblk m c t (ix2 k l) = normals m c (ix2 k r) := by
  obtain ⟨-, -, e0, e1⟩ := in_index t
  show ((cfg0.win 1).blk t).view.read (Elt Ideal) (V m c (Pipeline.arrRef spec0 1)) (ix2 k l) = V m c main_v23 (ix2 k r)
  rw [View.read_apply]
  show V m c main_v23 (((cfg0.win 1).blk t).view.emb (ix2 k l)) = V m c main_v23 (ix2 k r)
  refine congrArg (V m c main_v23) (funext fun a => Fin.ext ?_)
  match a with
  | ⟨0, _⟩ => show win0_1.index t (0 : Fin 2) * 3 + 1 * k.val = k.val; rw [e0]; omega
  | ⟨1, _⟩ => show win0_1.index t (1 : Fin 2) * 160000 + 1 * l.val = r.val; rw [e1, hr]; omega

/-- Block `t`'s sum is the sum of the terms of its 160,000 edges. -/
theorem blockAt_eq (c : Dev nD) (t : Fin 50) :
    blockAt m c t.val = ∑ l : Fin 160000, termAt m c (Cert.EdgeSum.edgeAt t l) := by
  have hN : cfg0.N = 50 := N_0
  have ht : t.val < cfg0.N := by rw [hN]; exact t.isLt
  rw [blockAt_of_lt m c t.val ht]
  unfold blockSum termAt
  refine Finset.sum_congr rfl fun l _ => ?_
  refine congrArg₂ Cert.EdgeSum.term (funext fun k => ?_) (funext fun k => ?_)
  · exact eblk_apply m c ⟨t.val, ht⟩ k l (Cert.EdgeSum.edgeAt t l) rfl
  · exact nblk_apply m c ⟨t.val, ht⟩ k l (Cert.EdgeSum.edgeAt t l) rfl

/-- The two rows' tiles, added, are the sum of the terms of all edges. -/
theorem rows_total (c : Dev nD) :
    rowTiles m c (ix3 (0 : Fin 2) (0 : Fin 8) (0 : Fin 128)) + rowTiles m c (ix3 (1 : Fin 2) (0 : Fin 8) (0 : Fin 128))
      = ∑ r : Fin 8000000, termAt m c r := by
  show Cert.EdgeSum.running (blockAt m c) 24 + Cert.EdgeSum.running (blockAt m c) 49 = _
  rw [Cert.EdgeSum.two_rows, Cert.EdgeSum.sum_range_fin _ _ (blockAt_eq m c), Cert.EdgeSum.sum_blocks]

/-- Every coordinate of an index of the one-entry rank-3 shape is zero. -/
theorem unit3_val (j : S1x1x1.Idx) (b : Fin 3) : (j b).val = 0 := by
  match b with
  | ⟨0, _⟩ => show (j 0).val = 0; have : (j 0).val < 1 := (j 0).isLt; omega
  | ⟨1, _⟩ => show (j 1).val = 0; have : (j 1).val < 1 := (j 1).isLt; omega
  | ⟨2, _⟩ => show (j 2).val = 0; have : (j 2).val < 1 := (j 2).isLt; omega

/-- The host's `out[i0, 0, 0]`: the one-entry slice at offset `(i0, 0, 0)` reshaped to a scalar reads entry `(i0, 0, 0)`. -/
theorem corner_apply (G : S2x8x128.Idx → EReal) (i0 : Fin 2) (off : Fin 3 → Nat) (hoff : off = ![i0.val, 0, 0])
    (h : S2x8x128.Slices off S1x1x1) (h' : S1x1x1.ShapeCasts S_) (i : S_.Idx) :
    shapeCast S_ (extractStridedSlice S1x1x1 off G h) h' i = G (ix3 i0 (0 : Fin 8) (0 : Fin 128)) := by
  unfold shapeCast
  refine extractStridedSlice_apply off G h _ (ix3 i0 (0 : Fin 8) (0 : Fin 128)) (fun a => ?_)
  subst hoff
  rw [unit3_val]
  match a with
  | ⟨0, _⟩ => rfl
  | ⟨1, _⟩ => rfl
  | ⟨2, _⟩ => rfl

/-- What the region leaves in the result array, as the host lines after it find it. -/
theorem tail_array (c : Dev nD) :
    Pipeline.withArrays (cfgs 0).spec c (V0 m c) (fun w => (dats m 0 c).arrAt w (cfgs 0).N) (Proc.devRef .tc main_v24)
      = rowTiles m c :=
  (Pipeline.withArrays_arr spec0 launch0.win.arr_inj c _ _ 2).trans (array_eq m c)

/-- THE RESULT of @main at the ideal instance. -/
theorem result_eq (c : Dev nD) :
    Pipeline.afterTail₀ cfgs (dats m) 0 (V0 m) [hostOps1] c main_v30
      = fun _ => Ideal.div (∑ r : Fin 8000000, termAt m c r) (Ideal.ofBits .f32 0x4AF42400#32) := by
  unfold Pipeline.afterTail₀
  show StableHlo.after hostOps1 _ (Proc.devRef .tc main_v30) = _
  after_results
  rw [tail_array m c]
  funext i
  show Ideal.div (shapeCast S_ (extractStridedSlice S1x1x1 ![0, 0, 0] (rowTiles m c) slices_S2x8x128_S1x1x1_0_0_0) shapeCasts_S1x1x1_S_ i
      + shapeCast S_ (extractStridedSlice S1x1x1 ![1, 0, 0] (rowTiles m c) slices_S2x8x128_S1x1x1_1_0_0) shapeCasts_S1x1x1_S_ i)
    (Ideal.ofBits .f32 0x4AF42400#32) = _
  refine congrArg (fun s => Ideal.div s (Ideal.ofBits .f32 0x4AF42400#32)) ?_
  exact (congrArg₂ (· + ·) (corner_apply (rowTiles m c) (0 : Fin 2) _ rfl _ _ i)
    (corner_apply (rowTiles m c) (1 : Fin 2) _ rfl _ _ i)).trans (rows_total m c)

/-- The run, read: the result at that quotient, the five arguments unchanged. -/
theorem run : θ_run defs (onTc (τ := τ) (main (F := Ideal))) ⟨m, fun _ => 0, ρ⟩ fun r => ∀ c : Dev nD,
      r.2.mem ((c.tc : Thread nD τ).loc main_v30)
        = (fun _ => Ideal.div (∑ r : Fin 8000000, termAt m c r) (Ideal.ofBits .f32 0x4AF42400#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v30 (Pipeline.mem_restRefs_of main_v30 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Tile

end
-- ==== Proof.LibGatherAxis.lean ====
/-
  `stablehlo.gather` taking whole ROWS, or whole COLUMNS, of a rank-2 table, read at an index.

  jnp's `table[idx]` over a table `[N, C]` with positions `idx : [n]` prints as a gather whose start indices are the
  `[n, 1]` column of positions, whose operand axis 0 is collapsed and start-indexed and whose axis 1 is the result's
  offset axis: result entry `(p, q)` is the table's entry `(clamp idx[p], q)`. `table[:, idx]` over a table `[C, N]` is
  the same with the axes exchanged: result entry `(q, p)` is the table's entry `(q, clamp idx[p])`. `clamp` reads the
  start index as a signed integer and clamps it into `[0, N − 1]`, as StableHLO's gather clamps every start index.
  So the second, applied to the transposed table, is the transpose of the first.
-/
import Idealize.ShloMosaic.PureOps
import Idealize.ShloMosaic.Lib.ValueIdx

noncomputable section

namespace Idealize.ShloMosaic.GatherAxis

open Idealize.ShloMosaic Idealize.ShloMosaic.ValueIdx

variable {α : Type}

/-- An axis of a rank-2 shape other than axis 1 is axis 0. -/
theorem axis_eq_zero (X : Fin 2) (h : X ≠ 1) : X = 0 :=
  Fin.ext (by have := X.isLt; have : X.val ≠ 1 := fun e => h (Fin.ext e); omega)
/-- An axis of a rank-2 shape other than axis 0 is axis 1. -/
theorem axis_eq_one (X : Fin 2) (h : X ≠ 0) : X = 1 :=
  Fin.ext (by have := X.isLt; have : X.val ≠ 0 := fun e => h (Fin.ext e); omega)

/-- The entry of an `[n, 1]` column of start indices that result index `j` reads, when `j`'s coordinate on every batch
    axis of the result is `p`: row `p` of the column. -/
theorem siIdx_column {s t : Shape} {n : Nat} (d : GatherDims s ⟨2, ![n, 1]⟩ t) (hivd : d.indexVectorDim = 1)
    (hlen : d.startIndexMap.length = 1) (j : t.Idx) (p : Fin n) (hb : ∀ X ∈ d.batchDims, (j X).val = p.val)
    (c : Fin d.startIndexMap.length) : d.siIdx j c = ix2 p (0 : Fin 1) := by
  funext b
  match b with
  | ⟨0, _⟩ =>
    unfold GatherDims.siIdx
    rw [dif_neg (by rw [hivd]; exact Nat.zero_ne_one)]
    unfold GatherDims.siCoord
    apply Fin.ext
    simp only [Fin.val_cast]
    exact hb _ (List.getElem_mem _)
  | ⟨1, _⟩ =>
    unfold GatherDims.siIdx
    rw [dif_pos (by rw [hivd])]
    apply Fin.ext
    show c.val = 0
    have := c.isLt
    omega

/-- The table position that row `p` of an `[n, 1]` column of start indices names: the start index read as a signed
    integer and clamped into `[0, N − 1]`. -/
def rowOf (N : Nat) {n w : Nat} (hN : 0 < N) (idx : IVec ⟨2, ![n, 1]⟩ w) (p : Fin n) : Fin N :=
  ⟨min (idx (ix2 p (0 : Fin 1))).toInt.toNat (N - 1), by omega⟩

/-- ROWS. `table[idx]`: result entry `(p, q)` is the table's entry `(clamp idx[p], q)`. -/
theorem gather_rows {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 (rowOf N hN idx p) q) := by
  unfold Host.gather
  refine congrArg x (funext fun a => Fin.ext ?_)
  have hb0 : ∀ a : Fin 2, a ∉ d.operandBatchingDims := fun a => by rw [hob]; exact List.not_mem_nil
  have hbatch : ∀ X ∈ d.batchDims, ((ix2 p q : (⟨2, ![n, C]⟩ : Shape).Idx) X).val = p.val := fun X hX => by
    have hX1 : X ≠ 1 := by
      intro h; subst h
      simp [GatherDims.batchDims, Shape.kept, hoff] at hX
    obtain rfl : X = 0 := axis_eq_zero X hX1
    rfl
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = _
    rw [GatherDims.batchCoord_eq_zero _ _ _ (hb0 0), GatherDims.offCoord_eq_zero _ _ _ hk]
    unfold GatherDims.start
    rw [dif_pos hm, siIdx_column d hivd (by rw [hsim]; rfl) _ p hbatch _]
    show min _ (N - d.sliceSizes 0) + 0 + 0 = min _ (N - 1)
    simp only [hsl, Nat.add_zero]
  | ⟨1, _⟩ =>
    have hk : (1 : Fin 2) ∈ d.sKept := by rw [GatherDims.mem_sKept, hcoll, hob]; simp
    have hm : (1 : Fin 2) ∉ d.startIndexMap := by rw [hsim]; simp
    have hoffm : ∀ Y ∈ d.offsetDims, ((ix2 p q : (⟨2, ![n, C]⟩ : Shape).Idx) Y).val = q.val := fun Y hY => by
      rw [hoff] at hY
      obtain rfl := List.mem_singleton.mp hY
      rfl
    show d.start (ix2 p q) idx 1 + d.batchCoord (ix2 p q) 1 + d.offCoord (ix2 p q) 1 = q.val
    rw [GatherDims.batchCoord_eq_zero _ _ _ (hb0 1)]
    unfold GatherDims.start GatherDims.offCoord
    rw [dif_neg hm, dif_pos hk]
    simp only [Nat.zero_add, Nat.add_zero]
    exact hoffm _ (List.getElem_mem _)

/-- COLUMNS. `table[:, idx]`: result entry `(q, p)` is the table's entry `(q, clamp idx[p])`. -/
theorem gather_cols {N C n w : Nat} (d : GatherDims ⟨2, ![C, N]⟩ ⟨2, ![n, 1]⟩ ⟨2, ![C, n]⟩)
    (hoff : d.offsetDims = [0]) (hcoll : d.collapsedSliceDims = [1]) (hob : d.operandBatchingDims = [])
    (hsim : d.startIndexMap = [1]) (hivd : d.indexVectorDim = 1)
    (x : (⟨2, ![C, N]⟩ : Shape).Idx → α) (idx : IVec ⟨2, ![n, 1]⟩ w) (p : Fin n) (q : Fin C) (hN : 0 < N) :
    Host.gather d x idx (ix2 q p) = x (ix2 q (rowOf N hN idx p)) := by
  unfold Host.gather
  refine congrArg x (funext fun a => Fin.ext ?_)
  have hb0 : ∀ a : Fin 2, a ∉ d.operandBatchingDims := fun a => by rw [hob]; exact List.not_mem_nil
  have hbatch : ∀ X ∈ d.batchDims, ((ix2 q p : (⟨2, ![C, n]⟩ : Shape).Idx) X).val = p.val := fun X hX => by
    have hX0 : X ≠ 0 := by
      intro h; subst h
      simp [GatherDims.batchDims, Shape.kept, hoff] at hX
    obtain rfl : X = 1 := axis_eq_one X hX0
    rfl
  match a with
  | ⟨0, _⟩ =>
    have hk : (0 : Fin 2) ∈ d.sKept := by rw [GatherDims.mem_sKept, hcoll, hob]; simp
    have hm : (0 : Fin 2) ∉ d.startIndexMap := by rw [hsim]; simp
    have hoffm : ∀ Y ∈ d.offsetDims, ((ix2 q p : (⟨2, ![C, n]⟩ : Shape).Idx) Y).val = q.val := fun Y hY => by
      rw [hoff] at hY
      obtain rfl := List.mem_singleton.mp hY
      rfl
    show d.start (ix2 q p) idx 0 + d.batchCoord (ix2 q p) 0 + d.offCoord (ix2 q p) 0 = q.val
    rw [GatherDims.batchCoord_eq_zero _ _ _ (hb0 0)]
    unfold GatherDims.start GatherDims.offCoord
    rw [dif_neg hm, dif_pos hk]
    simp only [Nat.zero_add, Nat.add_zero]
    exact hoffm _ (List.getElem_mem _)
  | ⟨1, _⟩ =>
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 q p) idx 1 + d.batchCoord (ix2 q p) 1 + d.offCoord (ix2 q p) 1 = _
    rw [GatherDims.batchCoord_eq_zero _ _ _ (hb0 1), GatherDims.offCoord_eq_zero _ _ _ hk]
    unfold GatherDims.start
    rw [dif_pos hm, siIdx_column d hivd (by rw [hsim]; rfl) _ p hbatch _]
    show min _ (N - d.sliceSizes 1) + 0 + 0 = min _ (N - 1)
    simp only [hsl, Nat.add_zero]

end Idealize.ShloMosaic.GatherAxis

end
-- ==== Proof.KernelHost.lean ====
/-
  The host lines before the region: the two 3 × 8000000 arrays the kernel reads.

  Both tables are transposed to 3 × 500000; an array of 8,000,000 positions is first wrapped as jnp does (a negative
  position counts from the end: `p + 500000`) and laid out as an 8000000 × 1 column; `table[:, positions]` then takes
  one column of the transposed table per edge. `edges` is the difference of the vertex table's columns at the two
  endpoint position arrays, `normals` the normal table's columns at the vertex-id array. Read at `(k, r)`: entry
  `(row r, k)` of the untransposed table, `row r` the wrapped position of edge `r` clamped into the table.
-/
import proofs.«424472_j2516850835619_3_alg».proof.Proof.KernelLoss
import proofs.«424472_j2516850835619_3_alg».proof.Proof.LibGatherAxis
import Idealize.ShloMosaic.Lib.ValueLayout

noncomputable section

open scoped BigOperators
open Idealize.ShloMosaic Idealize.ShloMosaic.TcCoe Idealize.SL.Sem Idealize.ShloMosaic.ValueIdx

namespace Cert.KernelIdeal.Tile

open Cert.KernelIdeal Cert.KernelIdeal.Gen

variable (m : (ℓ : Loc nD τ sig) → Buf (Elt Ideal) ℓ)

/-- The vertex table (500000 × 3), the second argument. -/
abbrev vertTable (c : Dev nD) : FVec Ideal S500000x3 .f32 := m ((c.tc : Thread nD τ).loc main_arg1)
/-- The normal table (500000 × 3), the first argument. -/
abbrev normTable (c : Dev nD) : FVec Ideal S500000x3 .f32 := m ((c.tc : Thread nD τ).loc main_arg0)
/-- The edges' first endpoints, as positions into the vertex table. -/
abbrev pos0 (c : Dev nD) : IVec S8000000 32 := m ((c.tc : Thread nD τ).loc main_arg2)
/-- The edges' second endpoints. -/
abbrev pos1 (c : Dev nD) : IVec S8000000 32 := m ((c.tc : Thread nD τ).loc main_arg3)
/-- The edges' vertex ids, as positions into the normal table. -/
abbrev vids (c : Dev nD) : IVec S8000000 32 := m ((c.tc : Thread nD τ).loc main_arg4)

/-- Positions wrapped as jnp does and laid out as a column of start indices. -/
abbrev wrapped (x : IVec S8000000 32) : IVec S8000000x1 32 :=
  broadcastInDim S8000000x1 ![0] bcast_S8000000_S8000000x1_0
    (select (cmpi .slt x (broadcastInDim S8000000 ![] bcast_S_S8000000 (constantI S_ 32 0#32)))
      (addi x (broadcastInDim S8000000 ![] bcast_S_S8000000 (constantI S_ 32 500000#32))) x)

/-- The table row a column of start indices names for edge `r`: read signed, clamped into `[0, 499999]`. -/
abbrev rowOf (J : IVec S8000000x1 32) (r : Fin 8000000) : Fin 500000 :=
  GatherAxis.rowOf 500000 (by decide) J r

/-- One column per edge of a table's transpose: entry `(k, r)` is the table's entry `(row r, k)`. -/
theorem column_apply (x : S500000x3.Idx → EReal) (J : IVec S8000000x1 32) (k : Fin 3) (r : Fin 8000000) :
    Host.gather gather_S3x500000_S8000000x1_S3x8000000_0_1_n_n_1_1_31
        (transpose S3x500000 [1, 0] x transposes_S500000x3_S3x500000_1_0) J (ix2 k r)
      = x (ix2 (rowOf J r) k) := by
  refine (GatherAxis.gather_cols (N := 500000) (C := 3) (n := 8000000)
    gather_S3x500000_S8000000x1_S3x8000000_0_1_n_n_1_1_31 rfl rfl rfl rfl rfl _ J r k (by decide)).trans ?_
  exact transpose_ix2_apply x transposes_S500000x3_S3x500000_1_0 k _

set_option maxRecDepth 8192 in
set_option maxHeartbeats 2000000 in
/-- The array of endpoint differences, from the arguments. -/
theorem edges_eq (c : Dev nD) : edges m c =
    subf (Host.gather gather_S3x500000_S8000000x1_S3x8000000_0_1_n_n_1_1_31
        (transpose S3x500000 [1, 0] (vertTable m c) transposes_S500000x3_S3x500000_1_0)
        (wrapped (pos0 m c)))
      (Host.gather gather_S3x500000_S8000000x1_S3x8000000_0_1_n_n_1_1_31
        (transpose S3x500000 [1, 0] (vertTable m c) transposes_S500000x3_S3x500000_1_0)
        (wrapped (pos1 m c))) := by
  show StableHlo.after hostOps0 (fun b => m (c, b)) (Proc.devRef .tc main_v16) = _
  after_results_simp

set_option maxRecDepth 8192 in
set_option maxHeartbeats 2000000 in
/-- The array of gathered normals, from the arguments. -/
theorem normals_eq (c : Dev nD) : normals m c =
    Host.gather gather_S3x500000_S8000000x1_S3x8000000_0_1_n_n_1_1_31
      (transpose S3x500000 [1, 0] (normTable m c) transposes_S500000x3_S3x500000_1_0)
      (wrapped (vids m c)) := by
  show StableHlo.after hostOps0 (fun b => m (c, b)) (Proc.devRef .tc main_v23) = _
  after_results_simp

/-- Component `k` of edge `r`'s vector: the vertex table at the two endpoints' rows, subtracted. -/
theorem edges_apply (c : Dev nD) (k : Fin 3) (r : Fin 8000000) :
    edges m c (ix2 k r)
      = vertTable m c (ix2 (rowOf (wrapped (pos0 m c)) r) k)
        - vertTable m c (ix2 (rowOf (wrapped (pos1 m c)) r) k) := by
  rw [edges_eq m c]
  refine (subf_apply _ _ (ix2 k r)).trans ?_
  exact congrArg₂ (· - ·) (column_apply _ _ k r) (column_apply _ _ k r)

/-- Component `k` of edge `r`'s normal: the normal table at the vertex id's row. -/
theorem normals_apply (c : Dev nD) (k : Fin 3) (r : Fin 8000000) :
    normals m c (ix2 k r)
      = normTable m c (ix2 (rowOf (wrapped (vids m c)) r) k) := by
  rw [normals_eq m c]
  exact column_apply _ _ k r

end Cert.KernelIdeal.Tile

end
-- ==== Proof.RefLoss.lean ====
/-
  The idealized reference's result: the sum over all 8,000,000 edges of the edge's term, divided by the literal 8.0e6.

  The reference keeps an edge a ROW: `table[positions]` takes one row of the 500000 × 3 table per edge, giving
  8000000 × 3 arrays; the sums over an edge's three components run along the second axis and the last sum over all
  edges at once. Every reduction starts from the literal zero, which adds nothing on the extended reals.
-/
import proofs.«424472_j2516850835619_3_alg».proof.Proof.Gen.ReferenceIdeal.Run
import proofs.«424472_j2516850835619_3_alg».proof.Proof.Gen.ReferenceIdeal.Read
import proofs.«424472_j2516850835619_3_alg».proof.Proof.EdgeSum
import proofs.«424472_j2516850835619_3_alg».proof.Proof.LibGatherAxis
import Idealize.ShloMosaic.Lib.ValueIdx
import Idealize.ShloMosaic.Lib.ValueIdxRank1

noncomputable section

open scoped BigOperators
open Idealize.ShloMosaic Idealize.ShloMosaic.TcCoe Idealize.ShloMosaic.ValueIdx

namespace Cert.ReferenceIdeal.Loss

open Cert.ReferenceIdeal Cert.ReferenceIdeal.Gen Cert.ReferenceIdeal.Read

variable (a0 a1 : (⟨S500000x3, .f32⟩ : BufTy).Contents (Elt Ideal))
variable (a2 a3 a4 : (⟨S8000000, .i32⟩ : BufTy).Contents (Elt Ideal))

/-- The table row a column of start indices names for edge `r`: read signed, clamped into `[0, 499999]`. -/
abbrev rowOf (J : (⟨S8000000x1, .i32⟩ : BufTy).Contents (Elt Ideal)) (r : Fin 8000000) : Fin 500000 :=
  GatherAxis.rowOf 500000 (by decide) J r

/-- One row of a table per edge: entry `(r, k)` is the table's entry `(row r, k)`. -/
theorem row_apply (x : (⟨S500000x3, .f32⟩ : BufTy).Contents (Elt Ideal))
    (J : (⟨S8000000x1, .i32⟩ : BufTy).Contents (Elt Ideal)) (r : Fin 8000000) (k : Fin 3) :
    Host.gather gather_S500000x3_S8000000x1_S8000000x3_1_0_n_n_0_1_13 x J (ix2 r k) = x (ix2 (rowOf J r) k) :=
  GatherAxis.gather_rows (N := 500000) (C := 3) (n := 8000000)
    gather_S500000x3_S8000000x1_S8000000x3_1_0_n_n_0_1_13 rfl rfl rfl rfl rfl x J r k (by decide)

/-- Component `k` of edge `r`'s vector: the vertex table at the two endpoints' rows, subtracted. -/
theorem edge_apply (r : Fin 8000000) (k : Fin 3) :
    val_main_v14 (F := Ideal) a1 a2 a3 (ix2 r k)
      = a1 (ix2 (rowOf (val_main_v5 (F := Ideal) a2) r) k) - a1 (ix2 (rowOf (val_main_v12 (F := Ideal) a3) r) k) := by
  rw [val_main_v14_apply]
  unfold val_main_v6 val_main_v13
  exact congrArg₂ (· - ·) (row_apply a1 _ r k) (row_apply a1 _ r k)

/-- Component `k` of edge `r`'s normal: the normal table at the vertex id's row. -/
theorem normal_apply (r : Fin 8000000) (k : Fin 3) :
    val_main_v27 (F := Ideal) a0 a4 (ix2 r k) = a0 (ix2 (rowOf (val_main_v26 (F := Ideal) a4) r) k) := by
  unfold val_main_v27
  exact row_apply a0 _ r k

theorem idx29 (r : Fin 8000000) (k : Fin 3) : idx_main_v29 (ix1 r) k = ix2 r k :=
  funext fun a => by match a with | ⟨0, _⟩ => rfl | ⟨1, _⟩ => rfl
theorem idx16 (r : Fin 8000000) (k : Fin 3) : idx_main_v16 (ix1 r) k = ix2 r k :=
  funext fun a => by match a with | ⟨0, _⟩ => rfl | ⟨1, _⟩ => rfl
theorem idx19 (r : Fin 8000000) (k : Fin 3) : idx_main_v19 (ix2 r k) = ix2 r (0 : Fin 1) :=
  funext fun a => by match a with | ⟨0, _⟩ => rfl | ⟨1, _⟩ => rfl
theorem idx17 (r : Fin 8000000) : idx_main_v17 (ix2 r (0 : Fin 1)) = ix1 r :=
  funext fun a => by match a with | ⟨0, _⟩ => rfl

/-- The literal zero every reduction starts from is the extended real `0`. -/
theorem zero_cst : val_main_cst (F := Ideal) (Shape.Idx.first h_S_) = 0 := Ideal.ofBits_zero_f32
theorem zero_cst_5 : val_main_cst_5 (F := Ideal) (Shape.Idx.first h_S_) = 0 := Ideal.ofBits_zero_f32
theorem zero_cst_6 : val_main_cst_6 (F := Ideal) (Shape.Idx.first h_S_) = 0 := Ideal.ofBits_zero_f32

/-- Edge `r`'s squared length. -/
theorem sqlen_apply (r : Fin 8000000) :
    val_main_v16 (F := Ideal) a1 a2 a3 (ix1 r)
      = ∑ j : Fin 3, val_main_v14 (F := Ideal) a1 a2 a3 (ix2 r j) * val_main_v14 (F := Ideal) a1 a2 a3 (ix2 r j) := by
  rw [val_main_v16_apply, zero_cst, zero_add]
  refine Finset.sum_congr rfl fun j _ => ?_
  rw [idx16]
  rfl

/-- Edge `r`'s length, as every component of the edge is divided by it. -/
theorem length_apply (r : Fin 8000000) (k : Fin 3) :
    val_main_v19 (F := Ideal) a1 a2 a3 (ix2 r k)
      = Ideal.sqrt (∑ j : Fin 3, val_main_v14 (F := Ideal) a1 a2 a3 (ix2 r j) * val_main_v14 (F := Ideal) a1 a2 a3 (ix2 r j)) := by
  rw [val_main_v19_apply, idx19, val_main_v18_apply, val_main_v17_apply, idx17, sqlen_apply]
  rfl

/-- Component `k` of edge `r`'s normal times component `k` of its unit vector. -/
theorem product_apply (r : Fin 8000000) (k : Fin 3) :
    val_main_v28 (F := Ideal) a0 a1 a2 a3 a4 (ix2 r k)
      = val_main_v27 (F := Ideal) a0 a4 (ix2 r k) * Ideal.div (val_main_v14 (F := Ideal) a1 a2 a3 (ix2 r k))
          (Ideal.sqrt (∑ j : Fin 3, val_main_v14 (F := Ideal) a1 a2 a3 (ix2 r j) * val_main_v14 (F := Ideal) a1 a2 a3 (ix2 r j))) := by
  rw [val_main_v28_apply, val_main_v20_apply, length_apply]
  rfl

/-- Edge `r`'s dot of its normal with its unit edge vector. -/
theorem cosine_apply (r : Fin 8000000) :
    val_main_v29 (F := Ideal) a0 a1 a2 a3 a4 (ix1 r)
      = Cert.EdgeSum.cosine (fun k => val_main_v14 (F := Ideal) a1 a2 a3 (ix2 r k))
          (fun k => val_main_v27 (F := Ideal) a0 a4 (ix2 r k)) := by
  rw [val_main_v29_apply, zero_cst_5, zero_add]
  unfold Cert.EdgeSum.cosine
  refine Finset.sum_congr rfl fun k _ => ?_
  rw [idx29, product_apply]

/-- Edge `r`'s term. -/
theorem term_apply (r : Fin 8000000) :
    val_main_v30 (F := Ideal) a0 a1 a2 a3 a4 (ix1 r)
      = Cert.EdgeSum.term (fun k => val_main_v14 (F := Ideal) a1 a2 a3 (ix2 r k))
          (fun k => val_main_v27 (F := Ideal) a0 a4 (ix2 r k)) := by
  rw [val_main_v30_apply, cosine_apply]
  rfl

/-- The sum over the positions of the rank-1 shape of extent 8,000,000 is the sum over the edges. -/
theorem sum_edges (f : S8000000.Idx → EReal) : ∑ j : S8000000.Idx, f j = ∑ r : Fin 8000000, f (ix1 r) :=
  (Equiv.sum_comp (idxEquiv1 (n := 8000000)).symm f).symm

/-- THE RESULT of the reference's @main at the ideal instance, at its one index. -/
theorem result_apply (i : S_.Idx) :
    val_main_v32 (F := Ideal) a0 a1 a2 a3 a4 i
      = Ideal.div (∑ r : Fin 8000000, Cert.EdgeSum.term (fun k => val_main_v14 (F := Ideal) a1 a2 a3 (ix2 r k))
          (fun k => val_main_v27 (F := Ideal) a0 a4 (ix2 r k))) (Ideal.ofBits .f32 0x4AF42400#32) := by
  rw [val_main_v32_apply, val_main_v31_apply, zero_cst_6, zero_add, sum_edges]
  refine congrArg (fun s => Ideal.div s (Ideal.ofBits .f32 0x4AF42400#32)) ?_
  exact Finset.sum_congr rfl fun r _ => term_apply a0 a1 a2 a3 a4 r

end Cert.ReferenceIdeal.Loss

end
-- ==== Proof.lean ====
/-
  The loss of normals against edge directions: for every edge `r` of 8,000,000, with endpoints and a vertex id that
  are positions into two 500000 × 3 tables (the vertex table and the normal table), take the edge vector
  `e = vert[p₀ r] − vert[p₁ r]`, divide it by its Euclidean length `sqrt (∑ⱼ eⱼ²)`, dot it with the normal
  `norm[v r]`, and square; the loss is the sum of these terms over all edges divided by 8.0e6.

  Both programs compute exactly that, over the extended reals:

  * the reference keeps an edge a row of 8000000 × 3 arrays and sums all edges' terms at once
    (`Cert.ReferenceIdeal.Loss.result_apply`);
  * the kernel keeps an edge a column of 3 × 8000000 arrays (it gathers from the transposed tables), walks the
    columns in 50 blocks of 160,000 over a 2 × 25 grid, adds each block's sum into a tile that is reset at the start
    of each grid row, and its host lines add the two rows' tiles and divide (`Cert.KernelIdeal.Tile.run`).

  The position arrays are wrapped and clamped by the same operations on both sides, so edge `r` reads the same table
  rows in both (`term_eq`: a column of the transposed table is a row of the table); the remaining difference is the
  order and grouping of the additions, which does not matter on the extended reals (`Cert.EdgeSum`). The
  precondition (finite tables) is not needed: nothing here distributes or cancels, and where an edge has length zero
  or a sum is infinite both sides meet the same operations on the same numbers.

  The three frames are the generated ones (the reference's is its generated run with the result dropped), and the
  idealization rewrote nothing, so `preserves` is `True`.
-/
import proofs.«424472_j2516850835619_3_alg».proof.Defs
import proofs.«424472_j2516850835619_3_alg».proof.Proof.Gen.Kernel
import proofs.«424472_j2516850835619_3_alg».proof.Proof.Gen.Kernel.Frame
import proofs.«424472_j2516850835619_3_alg».proof.Proof.Gen.KernelIdeal
import proofs.«424472_j2516850835619_3_alg».proof.Proof.Gen.KernelIdeal.Frame
import proofs.«424472_j2516850835619_3_alg».proof.Proof.Gen.ReferenceIdeal
import proofs.«424472_j2516850835619_3_alg».proof.Proof.Gen.ReferenceIdeal.Run
import proofs.«424472_j2516850835619_3_alg».proof.Proof.Gen.ReferenceIdeal.Read
import proofs.«424472_j2516850835619_3_alg».proof.Proof.Gen.Pre_finite_inputs
import proofs.«424472_j2516850835619_3_alg».proof.Proof.KernelHost
import proofs.«424472_j2516850835619_3_alg».proof.Proof.RefLoss
import Idealize.ShloMosaic.Adequacy
import Idealize.ShloMosaic.Init

noncomputable section

namespace Cert.Proof

open scoped BigOperators
open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Edge `r`'s term is the same number in both programs: its vector and its normal read the same table rows, the
    kernel through a column of the transposed table, the reference through a row of the table. -/
theorem term_eq (m : (ℓ : Loc Cert.KernelIdeal.nD Cert.KernelIdeal.τ Cert.KernelIdeal.sig) → Buf (Elt Ideal) ℓ)
    (c : Dev Cert.KernelIdeal.nD) (r : Fin 8000000) :
    Cert.KernelIdeal.Tile.termAt m c r
      = Cert.EdgeSum.term
          (fun k => Cert.ReferenceIdeal.Read.val_main_v14 (F := Ideal)
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3)) (ix2 r k))
          (fun k => Cert.ReferenceIdeal.Read.val_main_v27 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg4)) (ix2 r k)) := by
  unfold Cert.KernelIdeal.Tile.termAt
  refine congrArg₂ Cert.EdgeSum.term (funext fun k => ?_) (funext fun k => ?_)
  · exact (Cert.KernelIdeal.Tile.edges_apply m c k r).trans (Cert.ReferenceIdeal.Loss.edge_apply _ _ _ r k).symm
  · exact (Cert.KernelIdeal.Tile.normals_apply m c k r).trans (Cert.ReferenceIdeal.Loss.normal_apply _ _ r k).symm

/-- Run from memories that agree on the five arguments, both programs end with the sum of all edges' terms divided
    by the literal 8.0e6. -/
theorem algebraic : Cert.algebraic_KernelIdeal_ReferenceIdeal := by
  intro m ρ m' ρ' _ hagree
  refine ⟨fun c => fun _ => Ideal.div (∑ r : Fin 8000000, Cert.KernelIdeal.Tile.termAt m c r)
    (Ideal.ofBits .f32 0x4AF42400#32), Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2.1, (hagree c).2.2.2.1,
    (hagree c).2.2.2.2]
  funext i
  rw [Cert.ReferenceIdeal.Loss.result_apply]
  exact congrArg (fun s => Ideal.div s (Ideal.ofBits .f32 0x4AF42400#32))
    (Finset.sum_congr rfl fun r _ => (term_eq m c r).symm)

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
